-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x512 : Shape := ⟨2, ![4096, 512]⟩
abbrev S512 : Shape := ⟨1, ![512]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S16384x4096 .f32) (main_arg1 : FVec F S4096x512 .f32) (main_arg2 : FVec F S512 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S16384x4096 : Shape := ⟨2, ![16384, 4096]⟩
abbrev S4096x512 : Shape := ⟨2, ![4096, 512]⟩
abbrev S512 : Shape := ⟨1, ![512]⟩
abbrev S1x512 : Shape := ⟨2, ![1, 512]⟩
abbrev S16384x512 : Shape := ⟨2, ![16384, 512]⟩
abbrev S512x4096 : Shape := ⟨2, ![512, 4096]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x512, .f32⟩
  | .hbm, ⟨2, _⟩ => ⟨S512, .f32⟩
  | .hbm, ⟨3, _⟩ => ⟨S1x512, .f32⟩
  | .hbm, ⟨4, _⟩ => ⟨S16384x512, .f32⟩
  | .local _ .vmem, ⟨0, _⟩ => ⟨S512x4096, .f32⟩
  | .local _ .vmem, ⟨1, _⟩ => ⟨S512x4096, .f32⟩
  | .local _ .vmem, ⟨2, _⟩ => ⟨S4096x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512_S1x512 : S512.ShapeCasts S1x512
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x512.size a
  hwx0_3 : ∀ i : grid0.Coords, EltTy.bits .f32 = 32 ∨ (Rect.block (s := S16384x512) S512x512.size (cc0_transform_3 i) (hinb0_3 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x512 : Shape := ⟨2, ![4096, 512]⟩
abbrev S512 : Shape := ⟨1, ![512]⟩
abbrev S_ : Shape := ⟨0, ![]⟩
abbrev S16384x512 : Shape := ⟨2, ![16384, 512]⟩
abbrev S1x512 : Shape := ⟨2, ![1, 512]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x512, .f32⟩
  | .hbm, ⟨2, _⟩ => ⟨S512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .i1⟩
  | .hbm, ⟨14, _⟩ => ⟨S_, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .i1⟩
  | .hbm, ⟨33, _⟩ => ⟨S_, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S16384x512, .f32⟩
  | .hbm, ⟨42, _⟩ => ⟨S1x512, .f32⟩
  | .hbm, ⟨43, _⟩ => ⟨S16384x512, .f32⟩
  | .hbm, ⟨44, _⟩ => ⟨S16384x512, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_4 : Ref sig .tc := ⟨.hbm, 22, rfl⟩
abbrev main_cst_5 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v7 : Ref sig .tc := ⟨.hbm, 29, rfl⟩
abbrev main_cst_6 : Ref sig .tc := ⟨.hbm, 30, rfl⟩
abbrev main_v8 : Ref sig .tc := ⟨.hbm, 31, rfl⟩
abbrev main_v9 : Ref sig .tc := ⟨.hbm, 32, rfl⟩
abbrev main_cst_7 : Ref sig .tc := ⟨.hbm, 33, rfl⟩
abbrev main_cst_8 : Ref sig .tc := ⟨.hbm, 34, rfl⟩
abbrev main_call3_v0 : Ref sig .tc := ⟨.hbm, 35, rfl⟩
abbrev main_call3_v1 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  bcast_S_S4096x512 : S_.BroadcastsInDim S4096x512 (![] : Fin 0 → Fin S4096x512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  dot_S16384x4096_S4096x512_S16384x512_1_0_0_1_n_n_wf : DotDims.WF S16384x4096 S4096x512 S16384x512 [1] [0] [0] [1] [] []

variable [Facts₀]

def dot_S16384x4096_S4096x512_S16384x512_1_0_0_1_n_n : DotDims S16384x4096 S4096x512 S16384x512 where
  lhsContracting := [1]
  rhsContracting := [0]
  lhsNonContracting := [0]
  rhsNonContracting := [1]
  lhsBatch := []
  rhsBatch := []
  wf := dot_S16384x4096_S4096x512_S16384x512_1_0_0_1_n_n_wf

class Facts : Prop extends Facts₀ where

variable [Facts]
-- ==== Proof.Binarize.lean ====
/-
  A dense layer over sign-quantized operands, as ONE function of its three argument arrays.

  The quantizer sends an extended real `v` to `+1` where `0 ≤ v` and to `-1` elsewhere (`quant`); the layer's
  entry at row `r`, column `u` is `∑ k, quant (x r k) · quant (W k u) + b u` (`dense`).

  A straight-through estimator writes the quantizer as `c + (quant v - c)` with `c` the value `v` clipped to
  `[-1, 1]`. On the extended reals `c + (s - c) = s` fails when `c` is an infinity, but a clipped value never is
  one: it lies between the two real bounds, so it is a real number, and for a real `c` the identity holds at every
  `s`, the two infinities included (`clip_add_sub`). No finiteness of `v` itself is needed.
-/
import Idealize.ShloMosaic.PureOps.Ideal
import Idealize.ShloMosaic.PureOps.Ideal.Laws
import Idealize.ShloMosaic.Lib.ValueIdx
import Idealize.ShloMosaic.Lib.IdealHost

noncomputable section

namespace Cert.BinaryDense

open Idealize.ShloMosaic Idealize.ShloMosaic.ValueIdx
open scoped BigOperators

/-! ## The two bounds are the reals 1 and -1 -/

/-- The f32 pattern `0xBF800000` is the real minus one. -/
theorem ofBits_neg_one_f32 : Ideal.ofBits .f32 0xBF800000#32 = ((-(1 : ℝ) : ℝ) : EReal) := by
  simp [Ideal.ofBits, Ideal.ieee, -EReal.coe_mul, -EReal.coe_neg]; norm_num

/-- The f32 pattern `0x3F800000` is the real one. -/
theorem ofBits_one_f32' : Ideal.ofBits .f32 0x3F800000#32 = (((1 : ℝ) : ℝ) : EReal) := by
  rw [Ideal.ofBits_one_f32]; norm_cast

/-! ## The quantizer -/

/-- The sign quantizer: `+1` where `0 ≤ v`, `-1` elsewhere, written over the three bit patterns a program prints. -/
def quant (v : Ideal .f32) : Ideal .f32 :=
  Scalar.select (FloatOps.cmpf (F := Ideal) (φ := .f32) .oge v (Ideal.ofBits .f32 0x00000000#32))
    (Ideal.ofBits .f32 0x3F800000#32) (Ideal.ofBits .f32 0xBF800000#32)

/-- The value `v` clipped between the two bounds: `min 1 (max (-1) v)`, over the printed patterns. -/
def clip (v : Ideal .f32) : Ideal .f32 :=
  min (Ideal.ofBits .f32 0x3F800000#32) (max (Ideal.ofBits .f32 0xBF800000#32) v)

/-- A clipped value is a real number, whatever `v` is. -/
theorem clip_real (v : Ideal .f32) : ∃ r : ℝ, clip v = (r : EReal) := by
  unfold clip
  rw [ofBits_one_f32', ofBits_neg_one_f32]
  set c : EReal := min ((1 : ℝ) : EReal) (max ((-(1 : ℝ) : ℝ) : EReal) v) with hc
  have htop : c ≠ ⊤ := ne_of_lt (lt_of_le_of_lt (min_le_left _ _) (EReal.coe_lt_top 1))
  have hbot : c ≠ ⊥ := by
    refine ne_of_gt (lt_of_lt_of_le (EReal.bot_lt_coe (-(1 : ℝ))) ?_)
    refine le_min ?_ (le_max_left _ _)
    exact EReal.coe_le_coe_iff.mpr (by norm_num)
  exact ⟨c.toReal, (EReal.coe_toReal htop hbot).symm⟩

/-- Adding back what was subtracted: for a real `c`, `c + (s - c) = s` at every extended real `s`. -/
theorem real_add_sub (r : ℝ) (s : EReal) : (r : EReal) + (s - (r : EReal)) = s := by
  induction s using EReal.rec with
  | bot => simp
  | top => simp
  | coe t => norm_cast; ring

/-- The straight-through form of a value over its clip is the value. -/
theorem clip_add_sub (v s : Ideal .f32) : clip v + (s - clip v) = s := by
  obtain ⟨r, hr⟩ := clip_real v
  rw [hr]; exact real_add_sub r s

/-! ## The layer -/

/-- The layer's result array: at `(r, u)` the sum over `k` of the quantized `x r k` times the quantized `W k u`,
    plus `b u`. -/
def dense (x : FVec Ideal ⟨2, ![16384, 4096]⟩ .f32) (W : FVec Ideal ⟨2, ![4096, 512]⟩ .f32)
    (b : FVec Ideal ⟨1, ![512]⟩ .f32) : FVec Ideal ⟨2, ![16384, 512]⟩ .f32 :=
  fun i => (∑ k : Fin 4096, quant (x (ix2 (i 0) k)) * quant (W (ix2 k (i 1)))) + b (ix1 (i 1))

end Cert.BinaryDense

end
-- ==== Proof.RefDense.lean ====
/-
  The reference program's result, read one operation at a time, is the sign-quantized dense layer `dense` of its
  three arguments.

  The reference quantizes each operand in straight-through form: `clip v + (quant v - clip v)`, the clip being
  `min 1 (max (-1) v)`. A clipped value is a real number, so the sum collapses to `quant v` at every extended real
  (`clip_add_sub`). The product of the two quantized operands is a host `dot_general`, at the ideal values the sum
  over the shared axis of the operands' products; the bias row is broadcast over the rows and added.
-/
import proofs.«117043_j44117904065171_1_alg».proof.Proof.Gen.ReferenceIdeal.Read
import proofs.«117043_j44117904065171_1_alg».proof.Proof.Binarize

noncomputable section

namespace Cert.ReferenceIdeal.RefDense

open Cert.ReferenceIdeal Cert.ReferenceIdeal.Read Idealize.ShloMosaic Idealize.ShloMosaic.ValueIdx Cert.BinaryDense
open scoped BigOperators

/-! ## The left operand, quantized -/

/-- The clipped left operand at an index is the clip of the entry: both bounds are broadcast scalars. -/
theorem clipped_x (x0 : FVec Ideal S16384x4096 .f32) (j : S16384x4096.Idx) :
    val_main_v0 (F := Ideal) x0 j = clip (x0 j) := rfl

/-- The selected `±1` of the left operand at an index is the quantizer of the entry. -/
theorem selected_x (x0 : FVec Ideal S16384x4096 .f32) (j : S16384x4096.Idx) :
    val_main_v4 (F := Ideal) x0 j = quant (x0 j) := rfl

/-- The straight-through form of the left operand at an index is the quantizer of the entry. -/
theorem quantized_x (x0 : FVec Ideal S16384x4096 .f32) (j : S16384x4096.Idx) :
    val_main_v6 (F := Ideal) x0 j = quant (x0 j) := by
  show val_main_v0 (F := Ideal) x0 j + (val_main_v4 (F := Ideal) x0 j - val_main_v0 (F := Ideal) x0 j) = _
  rw [clipped_x, selected_x]
  exact clip_add_sub _ _

/-! ## The right operand, quantized -/

/-- The clipped right operand at an index is the clip of the entry. -/
theorem clipped_w (x1 : FVec Ideal S4096x512 .f32) (j : S4096x512.Idx) :
    val_main_v7 (F := Ideal) x1 j = clip (x1 j) := rfl

/-- The selected `±1` of the right operand at an index is the quantizer of the entry. -/
theorem selected_w (x1 : FVec Ideal S4096x512 .f32) (j : S4096x512.Idx) :
    val_main_v11 (F := Ideal) x1 j = quant (x1 j) := rfl

/-- The straight-through form of the right operand at an index is the quantizer of the entry. -/
theorem quantized_w (x1 : FVec Ideal S4096x512 .f32) (j : S4096x512.Idx) :
    val_main_v13 (F := Ideal) x1 j = quant (x1 j) := by
  show val_main_v7 (F := Ideal) x1 j + (val_main_v11 (F := Ideal) x1 j - val_main_v7 (F := Ideal) x1 j) = _
  rw [clipped_w, selected_w]
  exact clip_add_sub _ _

/-! ## The whole result -/

/-- The reference's last stage is `dense` of the three arguments. -/
theorem result_eq (x0 : FVec Ideal S16384x4096 .f32) (x1 : FVec Ideal S4096x512 .f32) (x2 : FVec Ideal S512 .f32) :
    val_main_v17 (F := Ideal) x0 x1 x2 = dense x0 x1 x2 := by
  funext i
  rw [val_main_v17_apply, val_main_v14_apply, val_main_v16_apply, val_main_v15_apply]
  have hb : idx_main_v15 (idx_main_v16 i) = ix1 (i 1) :=
    funext fun a => Fin.ext (by match a with | ⟨0, _⟩ => rfl)
  rw [hb]
  show (∑ k : Fin 4096, _) + _ = (∑ k : Fin 4096, _) + _
  refine congrArg (· + x2 (ix1 (i 1))) (Finset.sum_congr rfl fun k _ => ?_)
  have hl : lidx_main_v14 i k = ix2 (i 0) k :=
    funext fun a => Fin.ext (by match a with | ⟨0, _⟩ => rfl | ⟨1, _⟩ => rfl)
  have hr : ridx_main_v14 i k = ix2 k (i 1) :=
    funext fun a => Fin.ext (by match a with | ⟨0, _⟩ => rfl | ⟨1, _⟩ => rfl)
  refine (congrArg₂ (· * ·) (quantized_x x0 (lidx_main_v14 i k)) (quantized_w x1 (ridx_main_v14 i k))).trans ?_
  exact congrArg₂ (fun a b => quant (x0 a) * quant (x1 b)) hl hr

end Cert.ReferenceIdeal.RefDense

end
-- ==== Proof.Payload.lean ====
/-
  What one grid point's body computes, read at an index of its 512 × 512 output block.

  The body loads a 512 × 4096 block of `x`, the whole 4096 × 512 array `W` and the 1 × 512 bias row; it quantizes
  the two operands to `±1` entry by entry (a change of float format is the identity at the ideal values), multiplies
  them into a zero accumulator, and adds the bias row broadcast over the block's rows. At `(p, j)` that is
  `∑ k, quant (x p k) · quant (W k j) + b 0 j`: the matrix product into zero is the plain sum over the shared axis.
-/
import proofs.«117043_j44117904065171_1_alg».proof.Proof.Gen.KernelIdeal.Skeleton
import proofs.«117043_j44117904065171_1_alg».proof.Proof.Binarize
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.BinaryDense
open scoped BigOperators

/-! ## The operand indices of the block's matrix product -/

theorem lhs_block_0 (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl
theorem lhs_block_1 (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
theorem rhs_block_0 (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
theorem rhs_block_1 (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

/-! ## The block product and the bias row at an index -/

/-- A matrix product of a 512 × 4096 by a 4096 × 512 vector into the zero splat, read at `(p, j)`: the sum over `k`
    of the left operand at `(p, k)` times the right at `(k, j)`. -/
theorem block_product_apply (l : FVec Ideal S512x4096 .bf16) (r : FVec Ideal S4096x512 .bf16) (p j : Fin 512) :
    FloatOps.matmul dot_S512x4096_S4096x512_S512x512_1_0_0_1_n_n none l r (constant S512x512 .f32 0x00000000#32) (ix2 p j)
      = ∑ k : Fin 4096, l (ix2 p k) * r (ix2 k j) := by
  rw [Ideal.matmul_constant_zero_apply, ← Equiv.sum_comp (ValueIdx.contrEquiv1 dot_S512x4096_S4096x512_S512x512_1_0_0_1_n_n 4096 rfl rfl).symm]
  refine Finset.sum_congr rfl fun k _ => ?_
  have hk := ValueIdx.contrEquiv1_symm_val dot_S512x4096_S4096x512_S512x512_1_0_0_1_n_n 4096 rfl rfl k
  have el : dot_S512x4096_S4096x512_S512x512_1_0_0_1_n_n.lhsIdx (ix2 p j) ((ValueIdx.contrEquiv1 dot_S512x4096_S4096x512_S512x512_1_0_0_1_n_n 4096 rfl rfl).symm k) = ix2 p k := funext fun a => Fin.ext (by
    match a with
    | ⟨0, _⟩ => exact lhs_block_0 _ _
    | ⟨1, _⟩ => exact (lhs_block_1 _ _).trans hk)
  have er : dot_S512x4096_S4096x512_S512x512_1_0_0_1_n_n.rhsIdx (ix2 p j) ((ValueIdx.contrEquiv1 dot_S512x4096_S4096x512_S512x512_1_0_0_1_n_n 4096 rfl rfl).symm k) = ix2 k j := funext fun a => Fin.ext (by
    match a with
    | ⟨0, _⟩ => exact (rhs_block_0 _ _).trans hk
    | ⟨1, _⟩ => exact rhs_block_1 _ _)
  rw [el, er]

/-- The 1 × 512 bias row broadcast over a 512 × 512 block, read at `(p, j)`, is the row's entry `j`. -/
theorem bias_row_apply (b : FVec Ideal S1x512 .f32) (p j : Fin 512) :
    broadcastTo S512x512 b broadcasts_S1x512_S512x512 (ix2 p j) = b (ix2 0 j) :=
  broadcastTo_apply b broadcasts_S1x512_S512x512 (ix2 p j) (ix2 0 j) (fun a => by
    match a with
    | ⟨0, _⟩ => show 0 = if (1 : Nat) = 1 then 0 else p.val; rw [if_pos rfl]
    | ⟨1, _⟩ => show j.val = if (512 : Nat) = 1 then 0 else j.val; rw [if_neg (by decide)])

/-! ## The payload -/

/-- The body's stored value at `(p, j)`: the quantized product's sum plus the bias row's entry. -/
theorem payload_apply (x0 : Vec Ideal S512x4096 .f32) (x1 : Vec Ideal S4096x512 .f32) (x2 : Vec Ideal S1x512 .f32) (p j : Fin 512) :
    k0_pay1 (F := Ideal) x0 x1 x2 (ix2 p j)
      = (∑ k : Fin 4096, quant (x0 (ix2 p k)) * quant (x1 (ix2 k j))) + x2 (ix2 0 j) := by
  unfold k0_pay1
  dsimp only [matmul]
  rw [ValueIdx.addf_apply, block_product_apply, shapeCast_self, shapeCast_self, bias_row_apply]
  rfl

end Cert.KernelIdeal.Block

end
-- ==== Proof.KernelDense.lean ====
/-
  The kernel's result array after its run is the sign-quantized dense layer `dense` of its three arguments.

  The grid has 32 points. Point `t` reads rows `512 t … 512 t + 511` of `x` (every column), the whole of `W`, and the
  bias as a 1 × 512 row (the host reshapes the 512 entries to that row before the launch); it writes rows
  `512 t … 512 t + 511` of the result (every column). So what point `t` writes back is block `t` of `dense`: at row
  `512 t + p`, column `j`, the body's `∑ k, quant (x (512 t + p) k) · quant (W k j) + b j`. Row `r` of the result lies
  in the block of point `r / 512`, so the 32 blocks cover the array and it ends holding `dense` everywhere.
-/
import proofs.«117043_j44117904065171_1_alg».proof.Proof.Gen.KernelIdeal.Value
import proofs.«117043_j44117904065171_1_alg».proof.Proof.Payload
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.BinaryDense
open Idealize.ShloMosaic.Pipeline (Dat)
open scoped BigOperators

variable (m : (ℓ : Loc nD τ sig) → Buf (Elt Ideal) ℓ) (ρ : Dev nD → PrngReg)

theorem origin_zero : (![0, 0] : Fin 2 → Nat) = fun _ => 0 := funext fun a => by fin_cases a <;> rfl

/-! ## Which block each window holds at a point -/

/-- Over the 32 points: the block of `x` moves down the rows with the output's block and spans every column; `W` and
    the bias row stay at their one block; the output's block index is the point itself, at column block 0. -/
theorem index_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0 :=
  (by decide +kernel : ∀ t : Fin grid0.N, _)

/-- Every one of the 32 row blocks of the result is some point's. -/
theorem index_onto : ∀ q : Fin 32, ∃ t : Fin cfg0.N, win0_3.index t = ![q.val, 0] :=
  (by decide +kernel : ∀ q : Fin 32, ∃ t : Fin grid0.N, win0_3.index t = ![q.val, 0])

/-! ## The bias row as the region finds it -/

/-- Before the launch the host reshapes the 512 bias entries to a 1 × 512 row. -/
theorem bias_row (c : Dev nD) :
    (V m c main_v0 : S1x512.Idx → EReal) = shapeCast S1x512 (m ((c : Thread nD τ).loc main_arg2)) shapeCasts_S512_S1x512 := by
  dsimp only [Gen.V, Gen.hostOps0]; after_results; rfl

/-- Entry `(0, j)` of that row is entry `j` of the bias. -/
theorem bias_row_apply (c : Dev nD) (j : Fin 512) :
    (V m c main_v0 : S1x512.Idx → EReal) (ix2 0 j) = m ((c : Thread nD τ).loc main_arg2) (ix1 j) := by
  rw [bias_row]
  exact shapeCast_apply _ shapeCasts_S512_S1x512 (ix2 0 j) (ix1 j) (by
    rw [Shape.rowMajor_val_two, Shape.rowMajor_val_one]; show j.val = 0 * 512 + j.val; omega)

/-! ## What a point writes back -/

/-- The layer over the arrays as the region finds them, the bias read through its 1 × 512 row. -/
abbrev found (c : Dev nD) : S16384x512.Idx → EReal :=
  dense (V m c main_arg0) (V m c main_arg1) (fun i => (V m c main_v0 : S1x512.Idx → EReal) (ix2 0 (i 0)))

/-- The body's stored value at an index of its block is `found` at the block's place in the array. -/
theorem payload_found (c : Dev nD) (t : Fin cfg0.N) (y : S512x512.Idx) :
    k0_pay1 (F := Ideal) (iblk m c 0 t) (iblk m c 1 t) (iblk m c 2 t) y = found m c (((cfg0.win 3).blk t).view.emb y) := by
  obtain ⟨p, j, rfl⟩ : ∃ (p : Fin 512) (j : Fin 512), y = ix2 p j := ⟨y 0, y 1, eq_ix2 y⟩
  obtain ⟨e0, e1, e2, e3, e4, e5, e6⟩ := index_facts t
  refine (Block.payload_apply (iblk m c 0 t) (iblk m c 1 t) (iblk m c 2 t) p j).trans ?_
  show (∑ k : Fin 4096, _) + _ = (∑ k : Fin 4096,
      quant (V m c main_arg0 (ix2 ((((cfg0.win 3).blk t).view.emb (ix2 p j)) 0) k))
        * quant (V m c main_arg1 (ix2 k ((((cfg0.win 3).blk t).view.emb (ix2 p j)) 1))))
      + (V m c main_v0 : S1x512.Idx → EReal) (ix2 0 ((((cfg0.win 3).blk t).view.emb (ix2 p j)) 1))
  refine congrArg₂ (· + ·) (Finset.sum_congr rfl fun k _ => congrArg₂ (fun a b => quant a * quant b) ?_ ?_) ?_
  · show V m c main_arg0 (((cfg0.win 0).blk t).view.emb (ix2 p k)) = _
    refine congrArg (V m c main_arg0) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 4096 + 1 * k.val = k.val; omega
  · show V m c main_arg1 (((cfg0.win 1).blk t).view.emb (ix2 k j)) = _
    refine congrArg (V m c main_arg1) (funext fun a => Fin.ext ?_)
    match a with
    | ⟨0, _⟩ => show win0_1.index t (0 : Fin 2) * 4096 + 1 * k.val = k.val; omega
    | ⟨1, _⟩ => show win0_1.index t (1 : Fin 2) * 512 + 1 * j.val = win0_3.index t (1 : Fin 2) * 512 + 1 * j.val; omega
  · show V m c main_v0 (((cfg0.win 2).blk t).view.emb (ix2 0 j)) = _
    refine congrArg (V m c main_v0) (funext fun a => Fin.ext ?_)
    match a with
    | ⟨0, _⟩ => show win0_2.index t (0 : Fin 2) * 1 + 1 * 0 = 0; omega
    | ⟨1, _⟩ => show win0_2.index t (1 : Fin 2) * 512 + 1 * j.val = win0_3.index t (1 : Fin 2) * 512 + 1 * j.val; omega

/-- What point `t` writes back is block `t` of `found`. -/
theorem flushed_eq (c : Dev nD) (t : Fin cfg0.N) :
    (dats m 0 c).flushed 3 t = ((cfg0.win 3).blk t).view.read (Elt Ideal) (found m c) := by
  rw [Value.flushed3]
  unfold out0_3
  rw [View.canon_unit_zero origin_zero]
  simp only [View.ld_unit_zero (S := S512x4096) origin_zero, View.ld_unit_zero (S := S4096x512) origin_zero,
    View.ld_unit_zero (S := S1x512) origin_zero]
  funext y
  exact payload_found m c t y

/-! ## The blocks cover the array -/

/-- An index of the array is in point `t`'s block iff each coordinate is in the block's range on its axis. -/
theorem mem_block (t : Fin cfg0.N) (i : S16384x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v1).slice (win0_3.rect t)).set ↔ _
  rw [View.set_slice_whole, Rect.mem_set_unit]
  exact Iff.rfl

/-- Row `r` of the result lies in the block of the point whose block index is `r / 512`. -/
theorem covered (i : S16384x512.Idx) :
    ∃ t : Fin cfg0.N, (cfg0.win 3).flush t = true ∧ i ∈ ((cfg0.win 3).blk t).view.set := by
  have hi0 : (i 0).val < 16384 := (i 0).isLt
  have hi1 : (i 1).val < 512 := (i 1).isLt
  obtain ⟨t, ht⟩ := index_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-! ## The array after the run -/

/-- The result array ends holding `dense` of the three argument arrays. -/
theorem final (c : Dev nD) :
    (dats m 0 c).arrAt 3 cfg0.N
      = dense (m ((c : Thread nD τ).loc main_arg0)) (m ((c : Thread nD τ).loc main_arg1)) (m ((c : Thread nD τ).loc main_arg2)) := by
  refine ((dats m 0 c).arrAt_eq_of_cover 3 (found m c) (fun t _ => flushed_eq m c t) covered).trans ?_
  show dense (V m c main_arg0) (V m c main_arg1) _ = _
  rw [V_main_arg0, V_main_arg1]
  refine congrArg (dense _ _) (funext fun i => ?_)
  rw [bias_row_apply m c (i 0)]
  exact congrArg _ (eq_ix1 i).symm

/-- The kernel's run: the result at `dense` of the arguments, the arguments unchanged. -/
theorem run : θ_run defs (onTc (τ := τ) (main (F := Ideal))) ⟨m, fun _ => 0, ρ⟩ fun r => ∀ c : Dev nD,
      r.2.mem ((c : Thread nD τ).loc main_v1)
        = dense (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  A dense layer over sign-quantized operands, computed two ways, is one function of its arguments.

  The kernel tiles the 16384 rows of `x` into 32 blocks of 512; each grid point quantizes its block of `x` and the
  whole of `W` to `±1` (`+1` where the entry is `≥ 0`), multiplies them into a zero accumulator and adds the bias
  row. The reference quantizes both operands in straight-through form, `clip v + (quant v - clip v)` with
  `clip v = min 1 (max (-1) v)`, multiplies them with one `dot_general`, and adds the bias.

  At the ideal values both results are, at row `r` and column `u`, `∑ k, quant (x r k) · quant (W k u) + b u`
  (`Cert.BinaryDense.dense`): a change of float format is the identity, a matrix product into zero and a
  `dot_general` are the same plain sum over the shared axis, and the straight-through form collapses to the quantizer
  because a clipped value is a real number (`Cert.BinaryDense.clip_add_sub`) — so the equality holds at every
  extended real input, and the finiteness of the inputs is never used.

  The three frames are the generated ones (the reference's is its run with the result dropped); the idealization
  rewrote nothing, so `preserves` has nothing to state.
-/
import proofs.«117043_j44117904065171_1_alg».proof.Defs
import proofs.«117043_j44117904065171_1_alg».proof.Proof.Gen.Kernel
import proofs.«117043_j44117904065171_1_alg».proof.Proof.Gen.Kernel.Skeleton
import proofs.«117043_j44117904065171_1_alg».proof.Proof.Gen.Kernel.Launch
import proofs.«117043_j44117904065171_1_alg».proof.Proof.Gen.Kernel.Points
import proofs.«117043_j44117904065171_1_alg».proof.Proof.Gen.Kernel.Frame
import proofs.«117043_j44117904065171_1_alg».proof.Proof.Gen.KernelIdeal
import proofs.«117043_j44117904065171_1_alg».proof.Proof.Gen.KernelIdeal.Skeleton
import proofs.«117043_j44117904065171_1_alg».proof.Proof.Gen.KernelIdeal.Launch
import proofs.«117043_j44117904065171_1_alg».proof.Proof.Gen.KernelIdeal.Points
import proofs.«117043_j44117904065171_1_alg».proof.Proof.Gen.KernelIdeal.Frame
import proofs.«117043_j44117904065171_1_alg».proof.Proof.Gen.ReferenceIdeal
import proofs.«117043_j44117904065171_1_alg».proof.Proof.Gen.Pre_finite_inputs
import proofs.«117043_j44117904065171_1_alg».proof.Proof.Gen.KernelIdeal.Value
import proofs.«117043_j44117904065171_1_alg».proof.Proof.Gen.ReferenceIdeal.Run
import proofs.«117043_j44117904065171_1_alg».proof.Proof.Gen.ReferenceIdeal.Read
import proofs.«117043_j44117904065171_1_alg».proof.Proof.Binarize
import proofs.«117043_j44117904065171_1_alg».proof.Proof.RefDense
import proofs.«117043_j44117904065171_1_alg».proof.Proof.Payload
import proofs.«117043_j44117904065171_1_alg».proof.Proof.KernelDense
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel [Cert.Kernel.Facts] [Cert.Pre_finite_inputs.Facts] : Cert.frame_Kernel :=
  fun m ρ _ => Cert.Kernel.Gen.frame m ρ

/-- So does the idealized kernel. -/
theorem frame_kernel_ideal [Cert.KernelIdeal.Facts] [Cert.Pre_finite_inputs.Facts] : Cert.frame_KernelIdeal :=
  fun m ρ _ => Cert.KernelIdeal.Gen.frame m ρ

/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on the arguments both programs end with the result at `dense` of the arguments: the kernel
    block by block, the reference through its straight-through quantizers. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefDense.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
